-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_15" .f32 0x3D888889#32 ((1 / 15 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4194304x8 : Shape := ⟨2, ![4194304, 8]⟩
abbrev S4194304x1 : Shape := ⟨2, ![4194304, 1]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4194304x1 : S_.BroadcastsInDim S4194304x1 (![] : Fin 0 → Fin S4194304x1.rank)
  reducesTo_S4194304x1_S_d0_1 : S4194304x1.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S4194304x8 32) (main_arg2 : FVec F S4194304x1 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4194304x1 .f32 := Host.absf main_arg2
  let main_cst_0 : FVec F S_ .f32 := constant S_ .f32 0x7F800000#32
  let main_v5 : FVec F S4194304x1 .f32 := broadcastInDim S4194304x1 ![] bcast_S_S4194304x1 main_cst_0
  let main_v6 : IVec S4194304x1 1 := cmpf .olt main_v4 main_v5
  let main_c_1 : IVec S_ 1 := constantI S_ 1 1#1
  let main_v7 : IVec S_ 1 := (fun x v => Host.reduce IntOp.andi x v reducesTo_S4194304x1_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S4194304x8 : Shape := ⟨2, ![4194304, 8]⟩
abbrev S4194304x1 : Shape := ⟨2, ![4194304, 1]⟩
abbrev S16384 : Shape := ⟨1, ![16384]⟩
abbrev S8192x4096 : Shape := ⟨2, ![8192, 4096]⟩
abbrev S16384x256x8 : Shape := ⟨3, ![16384, 256, 8]⟩
abbrev S16384x256x1 : Shape := ⟨3, ![16384, 256, 1]⟩
abbrev S8192x16384 : Shape := ⟨2, ![8192, 16384]⟩
abbrev S1024x512 : Shape := ⟨2, ![1024, 512]⟩
abbrev S512x32x8 : Shape := ⟨3, ![512, 32, 8]⟩
abbrev S512x32x1 : Shape := ⟨3, ![512, 32, 1]⟩
abbrev S512 : Shape := ⟨1, ![512]⟩
abbrev S512x32x8x1 : Shape := ⟨4, ![512, 32, 8, 1]⟩
abbrev S512x32x8x2 : Shape := ⟨4, ![512, 32, 8, 2]⟩
abbrev S512x32x16 : Shape := ⟨3, ![512, 32, 16]⟩
abbrev S512x512 : Shape := ⟨2, ![512, 512]⟩
abbrev S1x512 : Shape := ⟨2, ![1, 512]⟩
abbrev S4x2048x16384 : Shape := ⟨3, ![4, 2048, 16384]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4194304x8, .i32⟩
  | .hbm, ⟨2, _⟩ => ⟨S4194304x1, .f32⟩
  | .hbm, ⟨3, _⟩ => ⟨S16384, .f32⟩
  | .hbm, ⟨4, _⟩ => ⟨S8192x4096, .f32⟩
  | .hbm, ⟨5, _⟩ => ⟨S16384x256x8, .i32⟩
  | .hbm, ⟨6, _⟩ => ⟨S16384x256x1, .f32⟩
  | .hbm, ⟨7, _⟩ => ⟨S8192x16384, .f32⟩
  | .hbm, ⟨8, _⟩ => ⟨S4x2048x16384, .f32⟩
  | .local _ .vmem, ⟨0, _⟩ => ⟨S1024x512, .f32⟩
  | .local _ .vmem, ⟨1, _⟩ => ⟨S1024x512, .f32⟩
  | .local _ .vmem, ⟨2, _⟩ => ⟨S512x32x8, .i32⟩
  | .local _ .vmem, ⟨3, _⟩ => ⟨S512x32x8, .i32⟩
  | .local _ .vmem, ⟨4, _⟩ => ⟨S512x32x1, .f32⟩
  | .local _ .vmem, ⟨5, _⟩ => ⟨S512x32x1, .f32⟩
  | .local _ .vmem, ⟨6, _⟩ => ⟨S512, .f32⟩
  | .local _ .vmem, ⟨7, _⟩ => ⟨S512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 32, 8], ![false, false, false]⟩

def k0_cond2 (i : grid0.Coords) : BitVec 1 :=
  let arg2 : BitVec 32 := BitVec.ofNat 32 (i 2).val
  let c7_i32 : BitVec 32 := 7#32
  let v38 : BitVec 1 := Scalar.cmpi .eq arg2 c7_i32
  let v39 : BitVec 32 := Scalar.extui v38
  let c0_i32_15 : BitVec 32 := 0#32
  let v40 : BitVec 1 := Scalar.cmpi .ne v39 c0_i32_15
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x32x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4194304x8_S16384x256x8 : S4194304x8.ShapeCasts S16384x256x8
  shapeCasts_S4194304x1_S16384x256x1 : S4194304x1.ShapeCasts S16384x256x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x32x8_S512x32x8_0_0_0 : ∀ a, (![0, 0, 0] : Fin 3 → Nat) a + S512x32x8.size a ≤ S512x32x8.size a
  h_S512x32x8 : 0 < S512x32x8.numel
  shapeCasts_S512x32x8_S512x32x8 : S512x32x8.ShapeCasts S512x32x8
  shapeCasts_S512x32x8_S512x32x8x1 : S512x32x8.ShapeCasts S512x32x8x1
  concatenates_S512x32x8x1_S512x32x8x1_S512x32x8x2_d3 : Shape.Concatenates [S512x32x8x1, S512x32x8x1] S512x32x8x2 3
  shapeCasts_S512x32x8x2_S512x32x16 : S512x32x8x2.ShapeCasts S512x32x16
  inb_S512x32x1_S512x32x1_0_0_0 : ∀ a, (![0, 0, 0] : Fin 3 → Nat) a + S512x32x1.size a ≤ S512x32x1.size a
  h_S512x32x1 : 0 < S512x32x1.numel
  shapeCasts_S512x32x1_S512x32x1 : S512x32x1.ShapeCasts S512x32x1
  broadcasts_S512x32x1_S512x32x16 : S512x32x1.Broadcasts S512x32x16
  shapeCasts_S512x32x16_S512x512 : S512x32x16.ShapeCasts S512x512
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S8192x16384_S4x2048x16384 : S8192x16384.ShapeCasts S4x2048x16384
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32x8.size a ≤ S16384x256x8.size a
  hwx0_1 : ∀ i : grid0.Coords, EltTy.bits .i32 = 32 ∨ (Rect.block (s := S16384x256x8) S512x32x8.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32x1.size a ≤ S16384x256x1.size a
  hwx0_2 : ∀ i : grid0.Coords, EltTy.bits .f32 = 32 ∨ (Rect.block (s := S16384x256x1) S512x32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S16384.size a
  hwx0_3 : ∀ i : grid0.Coords, EltTy.bits .f32 = 32 ∨ (Rect.block (s := S16384) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x16384.size a
  hwx0_4 : ∀ i : grid0.Coords, EltTy.bits .f32 = 32 ∨ (Rect.block (s := S8192x16384) S1024x512.size (cc0_transform_4 i) (hinb0_4 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4194304x8 : Shape := ⟨2, ![4194304, 8]⟩
abbrev S4194304x1 : Shape := ⟨2, ![4194304, 1]⟩
abbrev S16384 : Shape := ⟨1, ![16384]⟩
abbrev S_ : Shape := ⟨0, ![]⟩
abbrev S4194304x8x1 : Shape := ⟨3, ![4194304, 8, 1]⟩
abbrev S4194304x8x2 : Shape := ⟨3, ![4194304, 8, 2]⟩
abbrev S4194304x16 : Shape := ⟨2, ![4194304, 16]⟩
abbrev S16384x4096 : Shape := ⟨2, ![16384, 4096]⟩
abbrev S4x2048x16384 : Shape := ⟨3, ![4, 2048, 16384]⟩
abbrev S1x1x16384 : Shape := ⟨3, ![1, 1, 16384]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4194304x8, .i32⟩
  | .hbm, ⟨2, _⟩ => ⟨S4194304x1, .f32⟩
  | .hbm, ⟨3, _⟩ => ⟨S16384, .f32⟩
  | .hbm, ⟨4, _⟩ => ⟨S_, .i32⟩
  | .hbm, ⟨5, _⟩ => ⟨S4194304x8, .i32⟩
  | .hbm, ⟨6, _⟩ => ⟨S4194304x8, .i32⟩
  | .hbm, ⟨7, _⟩ => ⟨S_, .i32⟩
  | .hbm, ⟨8, _⟩ => ⟨S4194304x8, .i32⟩
  | .hbm, ⟨9, _⟩ => ⟨S4194304x8, .i32⟩
  | .hbm, ⟨10, _⟩ => ⟨S_, .i32⟩
  | .hbm, ⟨11, _⟩ => ⟨S4194304x8, .i32⟩
  | .hbm, ⟨12, _⟩ => ⟨S4194304x8, .i32⟩
  | .hbm, ⟨13, _⟩ => ⟨S4194304x8x1, .i32⟩
  | .hbm, ⟨14, _⟩ => ⟨S4194304x8x1, .i32⟩
  | .hbm, ⟨15, _⟩ => ⟨S4194304x8x2, .i32⟩
  | .hbm, ⟨16, _⟩ => ⟨S4194304x16, .i32⟩
  | .hbm, ⟨17, _⟩ => ⟨S4194304x16, .f32⟩
  | .hbm, ⟨18, _⟩ => ⟨S_, .f32⟩
  | .hbm, ⟨19, _⟩ => ⟨S4194304x16, .f32⟩
  | .hbm, ⟨20, _⟩ => ⟨S4194304x16, .f32⟩
  | .hbm, ⟨21, _⟩ => ⟨S_, .f32⟩
  | .hbm, ⟨22, _⟩ => ⟨S4194304x1, .f32⟩
  | .hbm, ⟨23, _⟩ => ⟨S4194304x1, .f32⟩
  | .hbm, ⟨24, _⟩ => ⟨S4194304x16, .f32⟩
  | .hbm, ⟨25, _⟩ => ⟨S4194304x16, .f32⟩
  | .hbm, ⟨26, _⟩ => ⟨S4194304x16, .f32⟩
  | .hbm, ⟨27, _⟩ => ⟨S4194304x16, .f32⟩
  | .hbm, ⟨28, _⟩ => ⟨S16384x4096, .f32⟩
  | .hbm, ⟨29, _⟩ => ⟨S4x2048x16384, .f32⟩
  | .hbm, ⟨30, _⟩ => ⟨S1x1x16384, .f32⟩
  | .hbm, ⟨31, _⟩ => ⟨S4x2048x16384, .f32⟩
  | .hbm, ⟨32, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S4194304x8 : S_.BroadcastsInDim S4194304x8 (![] : Fin 0 → Fin S4194304x8.rank)
  bcast_S4194304x8_S4194304x8x1_0_1 : S4194304x8.BroadcastsInDim S4194304x8x1 (![0, 1] : Fin 2 → Fin S4194304x8x1.rank)
  concatenates_S4194304x8x1_S4194304x8x1_S4194304x8x2_d2 : Shape.Concatenates [S4194304x8x1, S4194304x8x1] S4194304x8x2 2
  shapeCasts_S4194304x8x2_S4194304x16 : S4194304x8x2.ShapeCasts S4194304x16
  bcast_S_S4194304x16 : S_.BroadcastsInDim S4194304x16 (![] : Fin 0 → Fin S4194304x16.rank)
  bcast_S_S4194304x1 : S_.BroadcastsInDim S4194304x1 (![] : Fin 0 → Fin S4194304x1.rank)
  bcast_S4194304x1_S4194304x16_0_1 : S4194304x1.BroadcastsInDim S4194304x16 (![0, 1] : Fin 2 → Fin S4194304x16.rank)
  shapeCasts_S4194304x16_S16384x4096 : S4194304x16.ShapeCasts S16384x4096
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Dequant.lean ====
/-
  A linear layer whose weight matrix is stored as packed 4-bit codes with one scale per group of sixteen.

  A code word holds two codes, its low four bits and the next four. Sixteen consecutive weights of a row of the
  16384 x 4096 matrix form a group; group number 256 o + r / 16 serves row o, columns r with that quotient; inside the
  group, column r reads code r % 2 of word (r % 16) / 2. A code c of a group with scale n stands for the weight
  c * (1/15) * (2 n) - n. The layer maps a row x of 4096 inputs to the sums over r of x r times the weight (o, r),
  plus a bias per output o. This file states that map once, entry by entry, over the extended reals.
-/
import Idealize.ShloMosaic.PureOps.Ideal
import Idealize.ShloMosaic.Lib.ValueIdx

noncomputable section

open scoped BigOperators

namespace Cert.Dequant

open Idealize.ShloMosaic Idealize.ShloMosaic.ValueIdx

/-- Code `h` of a word: its low four bits for `h = 0`, the next four (after an arithmetic shift by four) otherwise. -/
def nibble (w : BitVec 32) (h : ℕ) : BitVec 32 :=
  if h = 0 then IntOp.andi w 15#32 else IntOp.andi (IntOp.shrsi .vector w 4#32) 15#32

/-- The code as a number. -/
def code (w : BitVec 32) (h : ℕ) : EReal := (((nibble w h).toInt : ℝ) : EReal)

/-- The weight a code stands for under the scale `n`: `code * (1/15) * (2 n) - n`. -/
def weight (w : BitVec 32) (h : ℕ) (n : EReal) : EReal :=
  code w h * ((1 / 15 : ℝ) : EReal) * (Ideal.ofBits .f32 0x40000000#32 * n) - n

theorem group_lt (o : Fin 16384) (r : Fin 4096) : 256 * o.val + r.val / 16 < 4194304 := by
  have := o.isLt; have := r.isLt; omega

/-- The group that serves row `o` at column `r`. -/
def group (o : Fin 16384) (r : Fin 4096) : Fin 4194304 := ⟨256 * o.val + r.val / 16, group_lt o r⟩

/-- The word of that group holding column `r`'s code. -/
def wordOf (r : Fin 4096) : Fin 8 := ⟨r.val % 16 / 2, by have := r.isLt; omega⟩

/-- Entry (o, r) of the weight matrix, from the packed codes and the scales. -/
def entry (qw : (⟨2, ![4194304, 8]⟩ : Shape).Idx → BitVec 32) (nrm : (⟨2, ![4194304, 1]⟩ : Shape).Idx → EReal)
    (o : Fin 16384) (r : Fin 4096) : EReal :=
  weight (qw (ix2 (group o r) (wordOf r))) (r.val % 2) (nrm (ix2 (group o r) (0 : Fin 1)))

/-- The layer at batch `b`, position `s`, output `o`. -/
def layerAt (x : (⟨3, ![4, 2048, 4096]⟩ : Shape).Idx → EReal) (qw : (⟨2, ![4194304, 8]⟩ : Shape).Idx → BitVec 32)
    (nrm : (⟨2, ![4194304, 1]⟩ : Shape).Idx → EReal) (bias : (⟨1, ![16384]⟩ : Shape).Idx → EReal)
    (b : Fin 4) (s : Fin 2048) (o : Fin 16384) : EReal :=
  (∑ r : Fin 4096, x (ix3 b s r) * entry qw nrm o r) + bias (ix1 o)

/-- The layer as one array. -/
def layer (x : (⟨3, ![4, 2048, 4096]⟩ : Shape).Idx → EReal) (qw : (⟨2, ![4194304, 8]⟩ : Shape).Idx → BitVec 32)
    (nrm : (⟨2, ![4194304, 1]⟩ : Shape).Idx → EReal) (bias : (⟨1, ![16384]⟩ : Shape).Idx → EReal) :
    (⟨3, ![4, 2048, 16384]⟩ : Shape).Idx → EReal :=
  fun i => layerAt x qw nrm bias (i 0) (i 1) (i 2)

theorem layer_apply (x : (⟨3, ![4, 2048, 4096]⟩ : Shape).Idx → EReal) (qw : (⟨2, ![4194304, 8]⟩ : Shape).Idx → BitVec 32)
    (nrm : (⟨2, ![4194304, 1]⟩ : Shape).Idx → EReal) (bias : (⟨1, ![16384]⟩ : Shape).Idx → EReal)
    (b : Fin 4) (s : Fin 2048) (o : Fin 16384) :
    layer x qw nrm bias (ix3 b s o) = layerAt x qw nrm bias b s o := rfl

/-! ## One 512 x 512 tile of the weight matrix

A tile is cut from 512 rows and 32 consecutive groups: its code block has one word per (row, group, word of the group),
its scale block one scale per (row, group). Column `j` of the tile lies in the tile's group `j / 16`, and inside it
reads code `j % 2` of word `(j % 16) / 2`. -/

/-- The tile's group that holds column `j`. -/
def tileGroup (j : Fin 512) : Fin 32 := ⟨j.val / 16, by have := j.isLt; omega⟩

/-- The word of that group holding column `j`'s code. -/
def tileWord (j : Fin 512) : Fin 8 := ⟨j.val % 16 / 2, by have := j.isLt; omega⟩

/-- Entry (b, j) of the tile, from its code block and its scale block. -/
def tileWeight (q : (⟨3, ![512, 32, 8]⟩ : Shape).Idx → BitVec 32) (n : (⟨3, ![512, 32, 1]⟩ : Shape).Idx → EReal)
    (b j : Fin 512) : EReal :=
  weight (q (ix3 b (tileGroup j) (tileWord j))) (j.val % 2) (n (ix3 b (tileGroup j) (0 : Fin 1)))

end Cert.Dequant

end
-- ==== Proof.RefLayer.lean ====
/-
  The reference computes the layer: its matrix product over the 4096 inputs, with the weight matrix decoded from the
  packed codes and the scales group by group, plus the bias, is the layer's entry at every index.
-/
import proofs.«425768_j10900626998011_1_alg».proof.Proof.Gen.ReferenceIdeal.Run
import proofs.«425768_j10900626998011_1_alg».proof.Proof.Gen.ReferenceIdeal.Read
import proofs.«425768_j10900626998011_1_alg».proof.Proof.Dequant
import Idealize.ShloMosaic.Lib.Pipeline.Value
import Idealize.ShloMosaic.Lib.ValueIdx

noncomputable section

open scoped BigOperators

namespace Cert.RefLayer

open Idealize.ShloMosaic Idealize.ShloMosaic.ValueIdx Cert.ReferenceIdeal Cert.ReferenceIdeal.Read

/-! ## Two facts about words and one about a constant -/

/-- The pattern 0x41700000 is the number fifteen: sign 0, exponent 130, fraction 7 * 2^20, that is
    (2^23 + 7 * 2^20) * 2^(130 - 127 - 23) = 15. -/
theorem fifteen : Ideal.ofBits .f32 0x41700000#32 = ((15 : ℝ) : EReal) := by
  simp [Ideal.ofBits, Ideal.ieee, -EReal.coe_mul]; norm_num

/-- A shift by four is inside the word, so the host's arithmetic shift is the vector unit's. -/
theorem shrsi_four (w : BitVec 32) : IntOp.shrsi .host w 4#32 = IntOp.shrsi .vector w 4#32 := by
  unfold IntOp.shrsi
  rw [if_pos (by decide), if_pos (by decide)]

/-! ## Where the layout stages read -/

/-- The place of column `r` inside its group of sixteen. -/
def place (r : Fin 4096) : Fin 16 := ⟨r.val % 16, Nat.mod_lt _ (by decide)⟩

/-- The code of column `r` inside its word: the column's parity. -/
def half (r : Fin 4096) : Fin 2 := ⟨r.val % 2, Nat.mod_lt _ (by decide)⟩

/-- Entry (o, r) of the 16384 x 4096 matrix has row-major position 4096 o + r: group 256 o + r / 16, place r % 16. -/
theorem idx19 (o : Fin 16384) (r : Fin 4096) :
    idx_main_v19 (ix2 o r) = ix2 (Cert.Dequant.group o r) (place r) :=
  funext fun a => Fin.ext (by
    match a with
    | ⟨0, _⟩ => show (o.val * 4096 + r.val) / 16 = 256 * o.val + r.val / 16; omega
    | ⟨1, _⟩ => show (o.val * 4096 + r.val) % 16 = r.val % 16; omega)

/-- A scale broadcast along the sixteen places is read at its group. -/
theorem idx17 (g : Fin 4194304) (p : Fin 16) : idx_main_v17 (ix2 g p) = ix2 g (0 : Fin 1) :=
  funext fun a => Fin.ext (by
    match a with
    | ⟨0, _⟩ => rfl
    | ⟨1, _⟩ => rfl)

theorem idx15 (g : Fin 4194304) (p : Fin 16) : idx_main_v15 (ix2 g p) = ix2 g (0 : Fin 1) :=
  funext fun a => Fin.ext (by
    match a with
    | ⟨0, _⟩ => rfl
    | ⟨1, _⟩ => rfl)

/-- Place r % 16 of a group is code r % 2 of word (r % 16) / 2. -/
theorem idx9 (g : Fin 4194304) (r : Fin 4096) :
    idx_main_v9 (ix2 g (place r)) = ix3 g (Cert.Dequant.wordOf r) (half r) :=
  funext fun a => Fin.ext (by
    match a with
    | ⟨0, _⟩ => show (g.val * 16 + r.val % 16) / 16 = g.val; omega
    | ⟨1, _⟩ => show (g.val * 16 + r.val % 16) / 2 % 8 = r.val % 16 / 2; omega
    | ⟨2, _⟩ => show (g.val * 16 + r.val % 16) % 2 = r.val % 2; omega)

theorem idx6 (g : Fin 4194304) (w : Fin 8) : idx_main_v6 (ix3 g w (0 : Fin 1)) = ix2 g w :=
  funext fun a => Fin.ext (by
    match a with
    | ⟨0, _⟩ => rfl
    | ⟨1, _⟩ => rfl)

theorem idx7 (g : Fin 4194304) (w : Fin 8) : idx_main_v7 (ix3 g w (0 : Fin 1)) = ix2 g w :=
  funext fun a => Fin.ext (by
    match a with
    | ⟨0, _⟩ => rfl
    | ⟨1, _⟩ => rfl)

/-! ## The joined pair of codes -/

/-- Code 0 of a word comes from the first piece of the concatenation. -/
theorem v8_even (x1 : IVec S4194304x8 32) (g : Fin 4194304) (w : Fin 8) (h : Fin 2) (h0 : h.val = 0) :
    val_main_v8 (F := Ideal) x1 (ix3 g w h) = val_main_v6 (F := Ideal) x1 (ix3 g w (0 : Fin 1)) := by
  unfold val_main_v8
  exact concatenate_pair_apply_left (s₁ := S4194304x8x1) (s₂ := S4194304x8x1) _ _ _ _ (ix3 g w h) rfl (ix3 g w (0 : Fin 1)) (fun b => by
    match b with
    | ⟨0, _⟩ => rfl
    | ⟨1, _⟩ => rfl
    | ⟨2, _⟩ => exact h0.symm)

/-- Code 1 of a word comes from the second piece, one past the first piece's single position. -/
theorem v8_odd (x1 : IVec S4194304x8 32) (g : Fin 4194304) (w : Fin 8) (h : Fin 2) (h1 : h.val = 1) :
    val_main_v8 (F := Ideal) x1 (ix3 g w h) = val_main_v7 (F := Ideal) x1 (ix3 g w (0 : Fin 1)) := by
  unfold val_main_v8
  exact concatenate_pair_apply_right (s₁ := S4194304x8x1) (s₂ := S4194304x8x1) _ _ _ _ (ix3 g w h) rfl rfl (ix3 g w (0 : Fin 1)) (fun b hb => by
    match b, hb with
    | ⟨0, _⟩, _ => rfl
    | ⟨1, _⟩, _ => rfl
    | ⟨2, _⟩, hb => exact absurd rfl hb) (by show 0 + 1 = h.val; omega)

/-- The integer array of codes, at group `g` and the place of column `r`, is that column's code. -/
theorem v9_read (x1 : IVec S4194304x8 32) (g : Fin 4194304) (r : Fin 4096) :
    val_main_v9 (F := Ideal) x1 (ix2 g (place r))
      = Cert.Dequant.nibble (x1 (ix2 g (Cert.Dequant.wordOf r))) (r.val % 2) := by
  rw [val_main_v9_apply, idx9]
  rcases Nat.mod_two_eq_zero_or_one r.val with h | h
  · rw [v8_even x1 g _ _ h, val_main_v6_apply, idx6, val_main_v1_apply, val_main_v0_apply, val_main_c_apply]
    unfold Cert.Dequant.nibble
    rw [if_pos h]
  · rw [v8_odd x1 g _ _ h, val_main_v7_apply, idx7, val_main_v5_apply, val_main_v3_apply, val_main_v2_apply,
      val_main_c_0_apply, val_main_v4_apply, val_main_c_1_apply, shrsi_four]
    unfold Cert.Dequant.nibble
    rw [if_neg (by omega)]

/-! ## The weight matrix -/

/-- Entry (o, r) of the reference's decoded matrix is the specification's. -/
theorem weight_entry (x1 : IVec S4194304x8 32) (x2 : FVec Ideal S4194304x1 .f32) (o : Fin 16384) (r : Fin 4096) :
    val_main_v19 (F := Ideal) x1 x2 (ix2 o r) = Cert.Dequant.entry x1 x2 o r := by
  rw [val_main_v19_apply, idx19, val_main_v18_apply, val_main_v16_apply, val_main_v17_apply, idx17,
    val_main_v12_apply, val_main_v15_apply, idx15, val_main_v14_apply, val_main_v13_apply, val_main_cst_2_apply,
    val_main_v11_apply, val_main_cst_apply, val_main_v10_apply, v9_read]
  unfold Cert.Dequant.entry Cert.Dequant.weight Cert.Dequant.code
  show Ideal.div _ (Ideal.ofBits .f32 0x41700000#32) * (Ideal.ofBits .f32 0x40000000#32 * _) - _ = _
  rw [fifteen, Ideal.div_coe (by norm_num : (15 : ℝ) ≠ 0)]
  rfl

/-! ## The layer -/

/-- The product's left operand is read at (b, s, r). -/
theorem lidx20 (b : Fin 4) (s : Fin 2048) (o : Fin 16384) (r : Fin 4096) :
    lidx_main_v20 (ix3 b s o) r = ix3 b s r :=
  funext fun a => Fin.ext (by
    match a with
    | ⟨0, _⟩ => rfl
    | ⟨1, _⟩ => rfl
    | ⟨2, _⟩ => rfl)

/-- The product's right operand is read at (o, r). -/
theorem ridx20 (b : Fin 4) (s : Fin 2048) (o : Fin 16384) (r : Fin 4096) :
    ridx_main_v20 (ix3 b s o) r = ix2 o r :=
  funext fun a => Fin.ext (by
    match a with
    | ⟨0, _⟩ => rfl
    | ⟨1, _⟩ => rfl)

/-- The bias, broadcast over batch and position, is read at the output. -/
theorem idx21 (b : Fin 4) (s : Fin 2048) (o : Fin 16384) :
    idx_main_v21 (idx_main_v22 (ix3 b s o)) = ix1 o :=
  funext fun a => Fin.ext (by
    match a with
    | ⟨0, _⟩ => rfl)

/-- The reference's result array, as a function of its four arguments, is the layer. -/
theorem reference_is_layer (x0 : FVec Ideal S4x2048x4096 .f32) (x1 : IVec S4194304x8 32) (x2 : FVec Ideal S4194304x1 .f32)
    (x3 : FVec Ideal S16384 .f32) :
    val_main_v23 (F := Ideal) x0 x1 x2 x3 = Cert.Dequant.layer x0 x1 x2 x3 := by
  funext i
  obtain ⟨b, s, o, rfl⟩ : ∃ b s o, i = ix3 b s o := ⟨i 0, i 1, i 2, eq_ix3 i⟩
  rw [Cert.Dequant.layer_apply, val_main_v23_apply, val_main_v20_apply, val_main_v22_apply, val_main_v21_apply, idx21]
  unfold Cert.Dequant.layerAt
  show _ + _ = _ + _
  congr 1
  refine Finset.sum_congr rfl fun r _ => ?_
  rw [lidx20, ridx20, weight_entry]

end Cert.RefLayer

end
-- ==== Proof.Pieces.lean ====
/-
  What one run of the body leaves behind, as values. The body keeps a 1024 x 512 accumulator between grid points. At
  the first point of a reduction it stores zeros and then the zeros plus the point's product; at a middle point it
  stores what the point before left plus the point's product; at the last point it does the same and then stores the
  accumulator plus the bias block into the output block. Each is read here off the stores the run found: the last
  store covering a buffer decides its contents, and a load after a store reads what was stored.
-/
import proofs.«425768_j10900626998011_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F] [Named F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A middle point leaves in the accumulator what it found there plus the point's product. -/
theorem scratch_B (c : Dev nD) (i : grid0.Coords) (arg3 : Memref sig .tc .vmem S1024x512 .f32) (harg3 : arg3.IsWhole) (arg4 : Memref sig .tc .vmem S512x32x8 .i32) (harg4 : arg4.IsWhole) (arg5 : Memref sig .tc .vmem S512x32x1 .f32) (harg5 : arg5.IsWhole) (arg6 : Memref sig .tc .vmem S512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : ¬cond0_1 i)
    (x0 : Vec F S1024x512 .f32) (x1 : Vec F S512x32x8 .i32) (x2 : Vec F S512x32x1 .f32) (x3 : Vec F S512 .f32) (xs0 : Vec F S1024x512 .f32) :
    sout0_B_0 c i arg3 harg3 arg4 harg4 arg5 harg5 arg6 harg6 arg7 harg7 arg8 harg8 hc0 hc1 x0 x1 x2 x3 xs0 = k0_pay1 (k0_pay4 x1 x2 x0 xs0) := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread, harg8.read_unread, View.ld_unit_zero (S := S1024x512) hz2, View.ld_unit_zero (S := S512x32x8) hz3, View.ld_unit_zero (S := S512x32x1) hz3, View.ld_unit_zero (S := S512) hz1]

/-- The last point of a reduction leaves the same in the accumulator, -/
theorem scratch_C (c : Dev nD) (i : grid0.Coords) (arg3 : Memref sig .tc .vmem S1024x512 .f32) (harg3 : arg3.IsWhole) (arg4 : Memref sig .tc .vmem S512x32x8 .i32) (harg4 : arg4.IsWhole) (arg5 : Memref sig .tc .vmem S512x32x1 .f32) (harg5 : arg5.IsWhole) (arg6 : Memref sig .tc .vmem S512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x512 .f32) (x1 : Vec F S512x32x8 .i32) (x2 : Vec F S512x32x1 .f32) (x3 : Vec F S512 .f32) (xs0 : Vec F S1024x512 .f32) :
    sout0_C_0 c i arg3 harg3 arg4 harg4 arg5 harg5 arg6 harg6 arg7 harg7 arg8 harg8 hc0 hc1 x0 x1 x2 x3 xs0 = k0_pay1 (k0_pay4 x1 x2 x0 xs0) := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread, View.ld_unit_zero (S := S1024x512) hz2, View.ld_unit_zero (S := S512x32x8) hz3, View.ld_unit_zero (S := S512x32x1) hz3, View.ld_unit_zero (S := S512) hz1]

/-- and in the output block that accumulator plus the bias block. -/
theorem out_C (c : Dev nD) (i : grid0.Coords) (arg3 : Memref sig .tc .vmem S1024x512 .f32) (harg3 : arg3.IsWhole) (arg4 : Memref sig .tc .vmem S512x32x8 .i32) (harg4 : arg4.IsWhole) (arg5 : Memref sig .tc .vmem S512x32x1 .f32) (harg5 : arg5.IsWhole) (arg6 : Memref sig .tc .vmem S512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x512 .f32) (x1 : Vec F S512x32x8 .i32) (x2 : Vec F S512x32x1 .f32) (x3 : Vec F S512 .f32) (xs0 : Vec F S1024x512 .f32) :
    out0_C_4 c i arg3 harg3 arg4 harg4 arg5 harg5 arg6 harg6 arg7 harg7 arg8 harg8 hc0 hc1 x0 x1 x2 x3 xs0 = k0_pay2 (k0_pay1 (k0_pay4 x1 x2 x0 xs0)) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread, View.ld_unit_zero (S := S1024x512) hz2, View.ld_unit_zero (S := S512x32x8) hz3, View.ld_unit_zero (S := S512x32x1) hz3, View.ld_unit_zero (S := S512) hz1, View.readCov_unit_zero (S := S1024x512) _ hz2]

/-- The first point of a reduction leaves in the accumulator the zeros plus the point's product. -/
theorem scratch_A (c : Dev nD) (i : grid0.Coords) (arg3 : Memref sig .tc .vmem S1024x512 .f32) (harg3 : arg3.IsWhole) (arg4 : Memref sig .tc .vmem S512x32x8 .i32) (harg4 : arg4.IsWhole) (arg5 : Memref sig .tc .vmem S512x32x1 .f32) (harg5 : arg5.IsWhole) (arg6 : Memref sig .tc .vmem S512 .f32) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1024x512 .f32) (x1 : Vec F S512x32x8 .i32) (x2 : Vec F S512x32x1 .f32) (x3 : Vec F S512 .f32) :
    sout0_A_0 c i arg3 harg3 arg4 harg4 arg5 harg5 arg6 harg6 arg7 harg7 arg8 harg8 hc0 hc1 x0 x1 x2 x3 = k0_pay1 (k0_pay4 x1 x2 x0 k0_pay3) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x512) hz2, View.readCov_unit_zero (S := S1024x512) _ hz2]
  simp only [View.readAt_eq_ld, harg3.read_unread, harg4.read_unread, harg5.read_unread, harg6.read_unread, harg8.read_unread, View.ld_unit_zero (S := S1024x512) hz2, View.ld_unit_zero (S := S512x32x8) hz3, View.ld_unit_zero (S := S512x32x1) hz3, View.ld_unit_zero (S := S512) hz1]

end Cert.KernelIdeal.Pieces

end
-- ==== Proof.Blocks.lean ====
/-
  Where a grid point's blocks lie in the arrays, and what those arrays are.

  The grid has 8 x 32 x 8 points; point t has row-block t / 256, feature-block (t / 8) % 32 and reduction step t % 8.
  Its input block is rows 1024 (t / 256) + a, columns 512 (t % 8) + j of the 8192 x 4096 inputs; its code and scale
  blocks are features 512 ((t / 8) % 32) + b and groups 32 (t % 8) + g; its bias block the same features; its output
  block the same rows and features of the 8192 x 16384 result. The arrays the region reads are the arguments re-laid
  row-major: row R of the inputs is (R / 2048, R % 2048) of the batch, and (feature O, group g) is group 256 O + g.
-/
import proofs.«425768_j10900626998011_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F] [Named F]
variable (m : (ℓ : Loc nD τ sig) → Buf (Elt F) ℓ)

/-- The printed index maps in closed form, decided over the grid. -/
theorem index_facts : ∀ t : Fin cfg0.N,
    win0_0.index t (0 : Fin 2) = t.val / 256 ∧ win0_0.index t (1 : Fin 2) = t.val % 8
    ∧ win0_1.index t (0 : Fin 3) = t.val / 8 % 32 ∧ win0_1.index t (1 : Fin 3) = t.val % 8 ∧ win0_1.index t (2 : Fin 3) = 0
    ∧ win0_2.index t (0 : Fin 3) = t.val / 8 % 32 ∧ win0_2.index t (1 : Fin 3) = t.val % 8 ∧ win0_2.index t (2 : Fin 3) = 0
    ∧ win0_3.index t (0 : Fin 1) = t.val / 8 % 32
    ∧ win0_4.index t (0 : Fin 2) = t.val / 256 ∧ win0_4.index t (1 : Fin 2) = t.val / 8 % 32 :=
  (by decide +kernel : ∀ t : Fin grid0.N, _)

theorem point_lt (t : Fin cfg0.N) : t.val < 2048 := lt_of_lt_of_eq t.isLt (show cfg0.N = 2048 from N_0)

/-- Row `a` of the block of rows at point `t`. -/
def row (t : Fin cfg0.N) (a : Fin 1024) : Fin 8192 :=
  ⟨1024 * (t.val / 256) + a.val, by have := point_lt t; have := a.isLt; omega⟩
/-- Column `j` of the reduction step at point `t`. -/
def col (t : Fin cfg0.N) (j : Fin 512) : Fin 4096 :=
  ⟨512 * (t.val % 8) + j.val, by have := j.isLt; omega⟩
/-- Feature `b` of the block of features at point `t`. -/
def feat (t : Fin cfg0.N) (b : Fin 512) : Fin 16384 :=
  ⟨512 * (t.val / 8 % 32) + b.val, by have := b.isLt; omega⟩
/-- Group `g` of the reduction step at point `t`. -/
def grp (t : Fin cfg0.N) (g : Fin 32) : Fin 256 :=
  ⟨32 * (t.val % 8) + g.val, by have := g.isLt; omega⟩

/-- The arrays as the region finds them, under the names of their literal types. -/
abbrev xarr (c : Dev nD) : Vec F S8192x4096 .f32 := V m c main_v0
abbrev qarr (c : Dev nD) : Vec F S16384x256x8 .i32 := V m c main_v1
abbrev narr (c : Dev nD) : Vec F S16384x256x1 .f32 := V m c main_v2
abbrev barr (c : Dev nD) : Vec F S16384 .f32 := V m c main_arg3

/-- The input block at a point, entry by entry. -/
theorem x_block (c : Dev nD) (t : Fin cfg0.N) (a : Fin 1024) (j : Fin 512) :
    (iblk m c 0 t : Vec F S1024x512 .f32) (ix2 a j) = xarr m c (ix2 (row t a) (col t j)) := by
  obtain ⟨e0, e1, -⟩ := index_facts t
  unfold iblk
  rw [View.read_apply]
  show V m c main_v0 _ = V m c main_v0 _
  congr 1
  funext d; apply Fin.ext
  match d with
  | ⟨0, _⟩ => show win0_0.index t (0 : Fin 2) * 1024 + 1 * a.val = 1024 * (t.val / 256) + a.val; omega
  | ⟨1, _⟩ => show win0_0.index t (1 : Fin 2) * 512 + 1 * j.val = 512 * (t.val % 8) + j.val; omega

/-- The code block at a point. -/
theorem q_block (c : Dev nD) (t : Fin cfg0.N) (b : Fin 512) (g : Fin 32) (w : Fin 8) :
    (iblk m c 1 t : Vec F S512x32x8 .i32) (ix3 b g w) = qarr m c (ix3 (feat t b) (grp t g) w) := by
  obtain ⟨-, -, e0, e1, e2, -⟩ := index_facts t
  unfold iblk
  rw [View.read_apply]
  show V m c main_v1 _ = V m c main_v1 _
  congr 1
  funext d; apply Fin.ext
  match d with
  | ⟨0, _⟩ => show win0_1.index t (0 : Fin 3) * 512 + 1 * b.val = 512 * (t.val / 8 % 32) + b.val; omega
  | ⟨1, _⟩ => show win0_1.index t (1 : Fin 3) * 32 + 1 * g.val = 32 * (t.val % 8) + g.val; omega
  | ⟨2, _⟩ => show win0_1.index t (2 : Fin 3) * 8 + 1 * w.val = w.val; omega

/-- The scale block at a point. -/
theorem n_block (c : Dev nD) (t : Fin cfg0.N) (b : Fin 512) (g : Fin 32) (z : Fin 1) :
    (iblk m c 2 t : Vec F S512x32x1 .f32) (ix3 b g z) = narr m c (ix3 (feat t b) (grp t g) z) := by
  obtain ⟨-, -, -, -, -, e0, e1, e2, -⟩ := index_facts t
  unfold iblk
  rw [View.read_apply]
  show V m c main_v2 _ = V m c main_v2 _
  congr 1
  funext d; apply Fin.ext
  match d with
  | ⟨0, _⟩ => show win0_2.index t (0 : Fin 3) * 512 + 1 * b.val = 512 * (t.val / 8 % 32) + b.val; omega
  | ⟨1, _⟩ => show win0_2.index t (1 : Fin 3) * 32 + 1 * g.val = 32 * (t.val % 8) + g.val; omega
  | ⟨2, _⟩ => show win0_2.index t (2 : Fin 3) * 1 + 1 * z.val = z.val; omega

/-- The bias block at a point. -/
theorem b_block (c : Dev nD) (t : Fin cfg0.N) (b : Fin 512) :
    (iblk m c 3 t : Vec F S512 .f32) (ix1 b) = barr m c (ix1 (feat t b)) := by
  obtain ⟨-, -, -, -, -, -, -, -, e0, -⟩ := index_facts t
  unfold iblk
  rw [View.read_apply]
  show V m c main_arg3 _ = V m c main_arg3 _
  congr 1
  funext d; apply Fin.ext
  match d with
  | ⟨0, _⟩ => show win0_3.index t (0 : Fin 1) * 512 + 1 * b.val = 512 * (t.val / 8 % 32) + b.val; omega

/-- The inputs the region reads are the batch re-laid as 8192 rows. -/
theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The codes the region reads are the packed words re-laid by feature and group. -/
theorem qarr_eq (c : Dev nD) :
    qarr m c = shapeCast S16384x256x8 (m ((c : Thread nD τ).loc main_arg1)) shapeCasts_S4194304x8_S16384x256x8 := by
  show StableHlo.after hostOps0 (fun b => m (c, b)) (Proc.devRef .tc main_v1) = _
  after_results
  rfl

/-- The scales the region reads are the scales re-laid by feature and group. -/
theorem narr_eq (c : Dev nD) :
    narr m c = shapeCast S16384x256x1 (m ((c : Thread nD τ).loc main_arg2)) shapeCasts_S4194304x1_S16384x256x1 := by
  show StableHlo.after hostOps0 (fun b => m (c, b)) (Proc.devRef .tc main_v2) = _
  after_results
  rfl

/-- The bias the region reads is the bias. -/
theorem barr_eq (c : Dev nD) : barr m c = m ((c : Thread nD τ).loc main_arg3) := V_main_arg3 m c

/-- Row `R` of the re-laid inputs is position `R % 2048` of batch `R / 2048`. -/
theorem xarr_apply (c : Dev nD) (R : Fin 8192) (I : Fin 4096) :
    xarr m c (ix2 R I) = m ((c : Thread nD τ).loc main_arg0)
      (ix3 (⟨R.val / 2048, by have := R.isLt; omega⟩ : Fin 4) (⟨R.val % 2048, by omega⟩ : Fin 2048) I) := by
  rw [xarr_eq]
  refine shapeCast_apply _ _ _ _ ?_
  show (S4x2048x4096.rowMajor _).val = (S8192x4096.rowMajor _).val
  rw [Shape.rowMajor_val_three, Shape.rowMajor_val_two]
  show (R.val / 2048 * 2048 + R.val % 2048) * 4096 + I.val = R.val * 4096 + I.val
  have := R.isLt; omega

/-- Feature `O`, group `g` of the re-laid codes is group `256 O + g`. -/
theorem qarr_apply (c : Dev nD) (O : Fin 16384) (g : Fin 256) (w : Fin 8) :
    qarr m c (ix3 O g w) = m ((c : Thread nD τ).loc main_arg1)
      (ix2 (⟨256 * O.val + g.val, by have := O.isLt; have := g.isLt; omega⟩ : Fin 4194304) w) := by
  rw [qarr_eq]
  refine shapeCast_apply _ _ _ _ ?_
  show (S4194304x8.rowMajor _).val = (S16384x256x8.rowMajor _).val
  rw [Shape.rowMajor_val_three, Shape.rowMajor_val_two]
  show (256 * O.val + g.val) * 8 + w.val = (O.val * 256 + g.val) * 8 + w.val
  omega

/-- The same for the scales. -/
theorem narr_apply (c : Dev nD) (O : Fin 16384) (g : Fin 256) (z : Fin 1) :
    narr m c (ix3 O g z) = m ((c : Thread nD τ).loc main_arg2)
      (ix2 (⟨256 * O.val + g.val, by have := O.isLt; have := g.isLt; omega⟩ : Fin 4194304) z) := by
  rw [narr_eq]
  refine shapeCast_apply _ _ _ _ ?_
  show (S4194304x1.rowMajor _).val = (S16384x256x1.rowMajor _).val
  rw [Shape.rowMajor_val_three, Shape.rowMajor_val_two]
  show (256 * O.val + g.val) * 1 + z.val = (O.val * 256 + g.val) * 1 + z.val
  omega

end Cert.KernelIdeal.Blocks

end
-- ==== Proof.LibDotLastAxis.lean ====
/-
  Two matrix products read at an index, at the ideal values, for operands that both keep the contracted axis LAST
  (a product of a matrix with the transpose of another, as a linear layer `x · Wᵀ` is written):

  * the matrix unit's product of an [m, k] block with an [n, k] block into the zero accumulator, at (a, b), is
    `∑ c, A (a, c) · B (b, c)`;
  * the host's contraction of a stack [p, q, k] with an [n, k] matrix, at (b, s, o), is `∑ c, A (b, s, c) · B (o, c)`.

  Both are stated over the literal record of dimension numbers with its well-formedness fact `w` a variable, so they apply
  to a program's own record whatever name it gives that fact. No rounding and no order of summation is left at the ideal
  values: each is one finite sum over the contracted coordinate.
-/
import Idealize.ShloMosaic.PureOps.Ideal.Laws
import Idealize.ShloMosaic.Lib.ValueIdx

noncomputable section

open scoped BigOperators

namespace Idealize.ShloMosaic.LibDotLastAxis

open Idealize.ShloMosaic Idealize.ShloMosaic.ValueIdx

variable {m n k : Nat}

/-- The matrix unit's product of two blocks that both carry the contracted axis last, accumulated from zero: entry
    (a, b) is the sum over the contracted coordinate `c` of `A (a, c) · B (b, c)`. -/
theorem matmul_zero_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

variable {p q : Nat}

/-- The host's contraction of a stack of row vectors [p, q, k] with a matrix [n, k] over their last axes: entry
    (b, s, o) is the sum over the contracted coordinate `c` of `A (b, s, c) · B (o, c)`. -/
theorem dotGeneral_stack_apply {φ₁ φ₂ : FTy}
    (w : DotDims.WF ⟨3, ![p, q, k]⟩ ⟨2, ![n, k]⟩ ⟨3, ![p, q, n]⟩ [2] [1] [0, 1] [0] [] [])
    (prec : Option ContractPrecision) (A : FVec Ideal ⟨3, ![p, q, k]⟩ φ₁) (B : FVec Ideal ⟨2, ![n, k]⟩ φ₂)
    (b : Fin p) (s : Fin q) (o : Fin n) :
    Host.dotGeneral (⟨[2], [1], [0, 1], [0], [], [], w⟩ : DotDims ⟨3, ![p, q, k]⟩ ⟨2, ![n, k]⟩ ⟨3, ![p, q, n]⟩) prec A B (ix3 b s o)
      = ∑ c : Fin k, A (ix3 b s c) * B (ix2 o c) := by
  show FloatOps.dotGeneral _ prec _ A B (ix3 b s o) = _
  rw [Ideal.dotGeneral_apply,
    ← Equiv.sum_comp (contrEquiv1 (⟨[2], [1], [0, 1], [0], [], [], w⟩ : DotDims ⟨3, ![p, q, k]⟩ ⟨2, ![n, k]⟩ ⟨3, ![p, q, n]⟩) k rfl rfl).symm]
  refine Finset.sum_congr rfl fun c _ => ?_
  have c3 := contrEquiv1_symm_val
    (⟨[2], [1], [0, 1], [0], [], [], w⟩ : DotDims ⟨3, ![p, q, k]⟩ ⟨2, ![n, k]⟩ ⟨3, ![p, q, n]⟩) k rfl rfl c
  have l3 : (⟨[2], [1], [0, 1], [0], [], [], w⟩ : DotDims ⟨3, ![p, q, k]⟩ ⟨2, ![n, k]⟩ ⟨3, ![p, q, n]⟩).lhsIdx (ix3 b s o)
      ((contrEquiv1 _ k rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![p, q, k]⟩ ⟨2, ![n, k]⟩ ⟨3, ![p, q, n]⟩).rhsIdx (ix3 b s o)
      ((contrEquiv1 _ k rfl rfl).symm c) = ix2 o c := by
    funext ax; apply Fin.ext
    match ax with
    | ⟨0, _⟩ => simp [DotDims.rhsIdx]; rfl
    | ⟨1, _⟩ => simp [DotDims.rhsIdx]; exact c3
  rw [l3, r3]

end Idealize.ShloMosaic.LibDotLastAxis

end
-- ==== Proof.TileStep.lean ====
/-
  One step of the tiled product, entry by entry: what the body adds to the accumulator at a grid point is the product
  of the point's 1024 x 512 block of inputs with its 512 x 512 tile of weights, the tile decoded from its packed codes
  and scales; the last step adds the bias block; the first starts from zero.
-/
import proofs.«425768_j10900626998011_1_alg».proof.Proof.Gen.KernelIdeal.Skeleton
import proofs.«425768_j10900626998011_1_alg».proof.Proof.Dequant
import proofs.«425768_j10900626998011_1_alg».proof.Proof.LibDotLastAxis
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators

namespace Cert.TileStep

open Idealize.ShloMosaic Idealize.ShloMosaic.ValueIdx Cert.KernelIdeal Cert.KernelIdeal.Gen

/-! ## The layout operations of the decoding, each read at an entry

A tile column `j` is cut as `j = 16 g + e` (group `g`, place `e` in the group) and `e = 2 w + t` (word `w`, code `t`
of the word). Row-major order makes each change of shape below the identity on the flat position. -/

section Layout
variable {α : Type}

/-- A [512, 32, 16] array read as [512, 512]: column `j` is place `j % 16` of group `j / 16`. -/
theorem flatten_apply (v : (⟨3, ![512, 32, 16]⟩ : Shape).Idx → α)
    (h : (⟨3, ![512, 32, 16]⟩ : Shape).ShapeCasts ⟨2, ![512, 512]⟩) (b j : Fin 512) :
    shapeCast ⟨2, ![512, 512]⟩ v h (ix2 b j)
      = v (ix3 b (⟨j.val / 16, by have := j.isLt; omega⟩ : Fin 32) (⟨j.val % 16, by omega⟩ : Fin 16)) :=
  shapeCast_apply v h _ _ (by
    rw [Shape.rowMajor_val_two, Shape.rowMajor_val_three]
    show (b.val * 32 + j.val / 16) * 16 + j.val % 16 = b.val * 512 + j.val
    omega)

/-- A [512, 32, 8, 2] array read as [512, 32, 16]: place `e` of a group is code `e % 2` of word `e / 2`. -/
theorem pair_apply (v : (⟨4, ![512, 32, 8, 2]⟩ : Shape).Idx → α)
    (h : (⟨4, ![512, 32, 8, 2]⟩ : Shape).ShapeCasts ⟨3, ![512, 32, 16]⟩) (b : Fin 512) (g : Fin 32) (e : Fin 16) :
    shapeCast ⟨3, ![512, 32, 16]⟩ v h (ix3 b g e)
      = v (ix4 b g (⟨e.val / 2, by have := e.isLt; omega⟩ : Fin 8) (⟨e.val % 2, by omega⟩ : Fin 2)) :=
  shapeCast_apply v h _ _ (by
    rw [Shape.rowMajor_val_three, Shape.rowMajor_val_four]
    show ((b.val * 32 + g.val) * 8 + e.val / 2) * 2 + e.val % 2 = (b.val * 32 + g.val) * 16 + e.val
    omega)

/-- A [512, 32, 8] array given a last axis of extent one reads the same entry. -/
theorem unit_apply (v : (⟨3, ![512, 32, 8]⟩ : Shape).Idx → α)
    (h : (⟨3, ![512, 32, 8]⟩ : Shape).ShapeCasts ⟨4, ![512, 32, 8, 1]⟩) (b : Fin 512) (g : Fin 32) (w : Fin 8) (u : Fin 1) :
    shapeCast ⟨4, ![512, 32, 8, 1]⟩ v h (ix4 b g w u) = v (ix3 b g w) :=
  shapeCast_apply v h _ _ (by
    rw [Shape.rowMajor_val_three, Shape.rowMajor_val_four]
    show (b.val * 32 + g.val) * 8 + w.val = ((b.val * 32 + g.val) * 8 + w.val) * 1 + u.val
    have := u.isLt; omega)

/-- Two [512, 32, 8, 1] arrays joined along the last axis: at last coordinate 0 the first one. -/
theorem join_low_apply (x y : (⟨4, ![512, 32, 8, 1]⟩ : Shape).Idx → α)
    (h : Shape.Concatenates [(⟨4, ![512, 32, 8, 1]⟩ : Shape), ⟨4, ![512, 32, 8, 1]⟩] ⟨4, ![512, 32, 8, 2]⟩ 3)
    (b : Fin 512) (g : Fin 32) (w : Fin 8) (t : Fin 2) (ht : t.val = 0) :
    concatenate ⟨4, ![512, 32, 8, 2]⟩ 3 [⟨⟨4, ![512, 32, 8, 1]⟩, x⟩, ⟨⟨4, ![512, 32, 8, 1]⟩, y⟩] h (ix4 b g w t)
      = x (ix4 b g w (0 : Fin 1)) :=
  concatenate_pair_apply_left 3 x y h (ix4 b g w t) rfl (ix4 b g w (0 : Fin 1)) (fun ax => by
    match ax with
    | ⟨0, _⟩ => rfl
    | ⟨1, _⟩ => rfl
    | ⟨2, _⟩ => rfl
    | ⟨3, _⟩ => exact ht.symm)

/-- Two [512, 32, 8, 1] arrays joined along the last axis: at last coordinate 1 the second one. -/
theorem join_high_apply (x y : (⟨4, ![512, 32, 8, 1]⟩ : Shape).Idx → α)
    (h : Shape.Concatenates [(⟨4, ![512, 32, 8, 1]⟩ : Shape), ⟨4, ![512, 32, 8, 1]⟩] ⟨4, ![512, 32, 8, 2]⟩ 3)
    (b : Fin 512) (g : Fin 32) (w : Fin 8) (t : Fin 2) (ht : t.val = 1) :
    concatenate ⟨4, ![512, 32, 8, 2]⟩ 3 [⟨⟨4, ![512, 32, 8, 1]⟩, x⟩, ⟨⟨4, ![512, 32, 8, 1]⟩, y⟩] h (ix4 b g w t)
      = y (ix4 b g w (0 : Fin 1)) :=
  concatenate_pair_apply_right 3 x y h (ix4 b g w t) rfl rfl (ix4 b g w (0 : Fin 1)) (fun ax => by
    match ax with
    | ⟨0, _⟩ => intro _; rfl
    | ⟨1, _⟩ => intro _; rfl
    | ⟨2, _⟩ => intro _; rfl
    | ⟨3, _⟩ => intro hne; exact absurd rfl hne) (by
    show 0 + 1 = t.val
    omega)

/-- One scale per (row, group) spread over the group's sixteen places. -/
theorem spread_apply (v : (⟨3, ![512, 32, 1]⟩ : Shape).Idx → α)
    (h : (⟨3, ![512, 32, 1]⟩ : Shape).Broadcasts ⟨3, ![512, 32, 16]⟩) (b : Fin 512) (g : Fin 32) (e : Fin 16) :
    broadcastTo ⟨3, ![512, 32, 16]⟩ v h (ix3 b g e) = v (ix3 b g (0 : Fin 1)) := by
  refine broadcastTo_apply v h (ix3 b g e) (ix3 b g (0 : Fin 1)) fun ax => ?_
  match ax with
  | ⟨0, _⟩ => rfl
  | ⟨1, _⟩ => rfl
  | ⟨2, _⟩ => rfl

end Layout

/-- The accumulating store's value at entry (a, b): the accumulator there plus the sum over the tile's 512 columns of
    input (a, j) times tile weight (b, j). -/
theorem accumulate_apply (q : Vec Ideal S512x32x8 .i32) (n : Vec Ideal S512x32x1 .f32) (x acc : Vec Ideal S1024x512 .f32)
    (a : Fin 1024) (b : Fin 512) :
    k0_pay4 (F := Ideal) q n x acc (ix2 a b)
      = acc (ix2 a b) + ∑ j : Fin 512, x (ix2 a j) * Cert.Dequant.tileWeight q n b j := by
  unfold k0_pay4
  -- the stored value is the old accumulator plus the matrix unit's product into zero
  show acc (ix2 a b) + FloatOps.matmul (F := Ideal) dot_S1024x512_S512x512_S1024x512_1_1_0_0_n_n none _ _ (constant S1024x512 .f32 0x00000000#32) (ix2 a b) = _
  refine congrArg (acc (ix2 a b) + ·) ((LibDotLastAxis.matmul_zero_apply _ none _ _ a b).trans ?_)
  -- term by term over the contracted column j
  refine Finset.sum_congr rfl fun j _ => ?_
  simp only [shapeCast_self]
  -- the tile at (b, j): group j / 16, place j % 16, word (j % 16) / 2, code (j % 16) % 2 = j % 2
  rw [truncf_apply, truncf_apply, flatten_apply, subf_apply, mulf_apply, mulf_apply, pair_apply,
    spread_apply, spread_apply, mulf_apply, broadcast_apply, broadcast_apply,
    IdealRules.named_const.ideal_named_scalar κ "inv_15" (φ := .f32) 0x3D888889#32 ((1 / 15 : ℝ) : EReal) rfl]
  unfold Cert.Dequant.tileWeight Cert.Dequant.weight Cert.Dequant.code Cert.Dequant.nibble
  rcases Nat.mod_two_eq_zero_or_one j.val with h0 | h1
  · -- an even column reads the word's low four bits
    rw [join_low_apply, unit_apply, if_pos h0, sitofp_apply, shapeCast_self q]
    · rfl
    · show j.val % 16 % 2 = 0
      omega
  · -- an odd column reads the next four
    rw [join_high_apply, unit_apply, if_neg (by omega), sitofp_apply, shapeCast_self q]
    · rfl
    · show j.val % 16 % 2 = 1
      omega

/-- The closing store's value at entry (a, b): the accumulator there plus the bias of column b. -/
theorem finish_apply (acc : Vec Ideal S1024x512 .f32) (bias : Vec Ideal S512 .f32) (a : Fin 1024) (b : Fin 512) :
    k0_pay2 (F := Ideal) acc bias (ix2 a b) = acc (ix2 a b) + bias (ix1 b) := by
  unfold k0_pay2
  show acc (ix2 a b) + broadcastTo S1024x512 (shapeCast S1x512 bias shapeCasts_S512_S1x512) broadcasts_S1x512_S1024x512 (ix2 a b) = _
  rw [broadcastTo_1b_ab_apply, shapeCast_a_1a_apply]

/-- The opening store writes zero everywhere. -/
theorem reset_apply (a : Fin 1024) (b : Fin 512) : k0_pay3 (F := Ideal) (ix2 a b) = 0 := by
  unfold k0_pay3
  rw [shapeCast_self]
  exact Ideal.ofBits_zero_f32

/-- The accumulating store writes its value unchanged (a cast between equal shapes). -/
theorem carry_eq {F : FTy → Type} [FloatOps F] [Named F] (v : FVec F S1024x512 .f32) : k0_pay1 (F := F) v = v := by
  unfold k0_pay1
  exact shapeCast_self v _

end Cert.TileStep

end
-- ==== Proof.LibTile.lean ====
/- Sums over a range cut into equal tiles. A sum over `Fin (m * n)` is the sum over the `m` tiles of the sums over the
   `n` places inside a tile, place `p` of tile `t` being `n * t + p`; and an accumulator that starts at zero plus the
   first tile's sum and adds one tile's sum per step ends at the whole sum. Stated over any additive commutative monoid,
   then at the literal sizes 20 tiles of 5000 in 100000. -/
import Mathlib.Algebra.BigOperators.Fin
import Mathlib.Algebra.BigOperators.Intervals
import Mathlib.Logic.Equiv.Fin.Basic

namespace Cert.Hand.LibTile

variable {M : Type*} [AddCommMonoid M]

/-- Place `p` of tile `t` lies inside the range. -/
theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- The whole sum is the sum over tiles of the sums inside each tile. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

/-- An accumulator that is zero plus tile 0's sum after the first step and gains tile `k + 1`'s sum at step `k + 1`
    holds, after step `k`, the sum of the tiles up to `k`. -/
theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

/-- So after the last of `m` steps it holds the sum over all tiles, -/
theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- and when tile `t`'s place `p` is entry `n * t + p` of a function on the whole range, the whole sum of that
    function. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

/-! ## At 20 tiles of 5000 rows in 100000 -/

/-- Row `p` of block `t` is a row of the array. -/
theorem row_lt {t p : ℕ} (ht : t < 20) (hp : p < 5000) : 5000 * t + p < 100000 := tile_lt (m := 20) (n := 5000) rfl ht hp

/-- The sum over the 100000 rows is the sum over the 20 blocks of the sums over each block's 5000 rows. -/
theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

/-- An accumulator started at zero plus block 0's sum and fed one block's sum per step holds, after the twentieth step,
    the sum over all 100000 rows. -/
theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.Running.lean ====
/-
  The accumulator across a reduction. For a fixed block of rows and block of features the eight reduction steps are
  consecutive grid points 8 q, ..., 8 q + 7. The first leaves zero plus its product in the accumulator, each later one
  adds its product, so after the eighth the accumulator at (a, b) is the whole sum over the 4096 inputs of the row's
  entry times the decoded weight; the eighth also writes that sum plus the bias into the output block. Sums over the
  extended reals regroup freely (addition is associative and commutative there), so no finiteness is used.
-/
import proofs.«425768_j10900626998011_1_alg».proof.Proof.Pieces
import proofs.«425768_j10900626998011_1_alg».proof.Proof.Blocks
import proofs.«425768_j10900626998011_1_alg».proof.Proof.TileStep
import proofs.«425768_j10900626998011_1_alg».proof.Proof.LibTile
import proofs.«425768_j10900626998011_1_alg».proof.Proof.Dequant

set_option maxRecDepth 16384

noncomputable section

open scoped BigOperators
open Idealize.ShloMosaic Idealize.ShloMosaic.TcCoe Idealize.SL.Sem
open Idealize.ShloMosaic.Pipeline (Dat)

namespace Cert.KernelIdeal.Running

open Cert.KernelIdeal Cert.KernelIdeal.Gen Idealize.ShloMosaic.ValueIdx Cert.KernelIdeal.Blocks

variable (m : (ℓ : Loc nD τ sig) → Buf (Elt Ideal) ℓ)

/-- The blocks of a point, under the names of their literal types. -/
abbrev xblk (c : Dev nD) (t : Fin cfg0.N) : Vec Ideal S1024x512 .f32 := iblk m c 0 t
abbrev qblk (c : Dev nD) (t : Fin cfg0.N) : Vec Ideal S512x32x8 .i32 := iblk m c 1 t
abbrev nblk (c : Dev nD) (t : Fin cfg0.N) : Vec Ideal S512x32x1 .f32 := iblk m c 2 t
abbrev bblk (c : Dev nD) (t : Fin cfg0.N) : Vec Ideal S512 .f32 := iblk m c 3 t

/-- The accumulator after point `t`. -/
def accAfter (c : Dev nD) (t : Fin cfg0.N) : Vec Ideal S1024x512 .f32 := (outsAt0 m c t.val t.isLt).2
/-- The output block after point `t`. -/
def outAfter (c : Dev nD) (t : Fin cfg0.N) : Vec Ideal S1024x512 .f32 := (outsAt0 m c t.val t.isLt).1

/-- The point before a point that is not the first. -/
def pred (t : Fin cfg0.N) : Fin cfg0.N := ⟨t.val - 1, Nat.lt_of_le_of_lt (Nat.sub_le _ _) t.isLt⟩

/-- A first step leaves the zeros plus its product. -/
theorem acc_first (c : Dev nD) (t : Fin cfg0.N) (h0 : t.val % 8 = 0) :
    accAfter m c t = k0_pay1 (k0_pay4 (qblk m c t) (nblk m c t) (xblk m c t) (k0_pay3 (F := Ideal))) := by
  have h1 : ¬t.val % 8 = 7 := by omega
  unfold accAfter
  rw [outsAt0_A m c t h0 h1]
  dsimp only
  exact Pieces.scratch_A (F := Ideal) c (grid0.coords t) (ms0_0 t) (hs0_0 t) (ms0_1 t) (hs0_1 t) (ms0_2 t) (hs0_2 t)
    (ms0_3 t) (hs0_3 t) (ms0_4 t) (hs0_4 t) scM0_0 (Memref.isWhole_whole _) ((hcond0_0 t).mpr h0)
    (fun h => h1 ((hcond0_1 t).mp h)) (iblk m c 0 t) (iblk m c 1 t) (iblk m c 2 t) (iblk m c 3 t)

/-- A later step adds its product to what the point before left. -/
theorem acc_later (c : Dev nD) (t : Fin cfg0.N) (h0 : ¬t.val % 8 = 0) :
    accAfter m c t = k0_pay1 (k0_pay4 (qblk m c t) (nblk m c t) (xblk m c t) (accAfter m c (pred t))) := by
  unfold accAfter
  by_cases h1 : t.val % 8 = 7
  · rw [outsAt0_C m c t h0 h1]
    dsimp only
    exact Pieces.scratch_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun h => h0 ((hcond0_0 t).mp h))
      ((hcond0_1 t).mpr h1) (iblk m c 0 t) (iblk m c 1 t) (iblk m c 2 t) (iblk m c 3 t)
      (outsAt0 m c (t.val - 1) (Nat.lt_of_le_of_lt (Nat.sub_le _ _) t.isLt)).2
  · rw [outsAt0_B m c t h0 h1]
    dsimp only
    exact Pieces.scratch_B (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun h => h0 ((hcond0_0 t).mp h))
      (fun h => h1 ((hcond0_1 t).mp h)) (iblk m c 0 t) (iblk m c 1 t) (iblk m c 2 t) (iblk m c 3 t)
      (outsAt0 m c (t.val - 1) (Nat.lt_of_le_of_lt (Nat.sub_le _ _) t.isLt)).2

/-- The last step writes the accumulator it leaves, plus the bias block, into the output block. -/
theorem out_last (c : Dev nD) (t : Fin cfg0.N) (h1 : t.val % 8 = 7) :
    outAfter m c t = k0_pay2 (accAfter m c t) (bblk m c t) := by
  have h0 : ¬t.val % 8 = 0 := by omega
  unfold outAfter accAfter
  rw [outsAt0_C m c t h0 h1]
  dsimp only
  rw [Pieces.scratch_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun h => h0 ((hcond0_0 t).mp h))
      ((hcond0_1 t).mpr h1) (iblk m c 0 t) (iblk m c 1 t) (iblk m c 2 t) (iblk m c 3 t)
      (outsAt0 m c (t.val - 1) (Nat.lt_of_le_of_lt (Nat.sub_le _ _) t.isLt)).2]
  exact Pieces.out_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun h => h0 ((hcond0_0 t).mp h))
      ((hcond0_1 t).mpr h1) (iblk m c 0 t) (iblk m c 1 t) (iblk m c 2 t) (iblk m c 3 t)
      (outsAt0 m c (t.val - 1) (Nat.lt_of_le_of_lt (Nat.sub_le _ _) t.isLt)).2

/-! ## Entry by entry -/

/-- Entry (O, r) of the weight matrix, decoded from the code and scale arrays the region reads. -/
def wAt (c : Dev nD) (O : Fin 16384) (r : Fin 4096) : EReal :=
  Cert.Dequant.weight
    (qarr m c (ix3 O (⟨r.val / 16, by have := r.isLt; omega⟩ : Fin 256) (⟨r.val % 16 / 2, by omega⟩ : Fin 8)))
    (r.val % 2)
    (narr m c (ix3 O (⟨r.val / 16, by have := r.isLt; omega⟩ : Fin 256) (0 : Fin 1)))

/-- The blocks read entry by entry, over their names. -/
theorem xblk_apply (c : Dev nD) (t : Fin cfg0.N) (a : Fin 1024) (j : Fin 512) :
    xblk m c t (ix2 a j) = xarr m c (ix2 (row t a) (col t j)) := x_block m c t a j
theorem qblk_apply (c : Dev nD) (t : Fin cfg0.N) (b : Fin 512) (g : Fin 32) (w : Fin 8) :
    qblk m c t (ix3 b g w) = qarr m c (ix3 (feat t b) (grp t g) w) := q_block m c t b g w
theorem nblk_apply (c : Dev nD) (t : Fin cfg0.N) (b : Fin 512) (g : Fin 32) (z : Fin 1) :
    nblk m c t (ix3 b g z) = narr m c (ix3 (feat t b) (grp t g) z) := n_block m c t b g z
theorem bblk_apply (c : Dev nD) (t : Fin cfg0.N) (b : Fin 512) :
    bblk m c t (ix1 b) = barr m c (ix1 (feat t b)) := b_block m c t b

/-- The tile a point decodes is the matrix's entries at the point's features and columns. -/
theorem tile_weight (c : Dev nD) (t : Fin cfg0.N) (b j : Fin 512) :
    Cert.Dequant.tileWeight (qblk m c t) (nblk m c t) b j = wAt m c (feat t b) (col t j) := by
  have hg : grp t (Cert.Dequant.tileGroup j) = (⟨(col t j).val / 16, by have := (col t j).isLt; omega⟩ : Fin 256) :=
    Fin.ext (by show 32 * (t.val % 8) + j.val / 16 = (512 * (t.val % 8) + j.val) / 16; omega)
  have hw : Cert.Dequant.tileWord j = (⟨(col t j).val % 16 / 2, by omega⟩ : Fin 8) :=
    Fin.ext (by show j.val % 16 / 2 = (512 * (t.val % 8) + j.val) % 16 / 2; omega)
  have hp : j.val % 2 = (col t j).val % 2 := by
    show j.val % 2 = (512 * (t.val % 8) + j.val) % 2; omega
  unfold Cert.Dequant.tileWeight wAt
  rw [qblk_apply, nblk_apply, hg, hw, hp]

/-- The product a point adds at entry (a, b). -/
def stepSum (c : Dev nD) (t : Fin cfg0.N) (a : Fin 1024) (b : Fin 512) : EReal :=
  ∑ j : Fin 512, xarr m c (ix2 (row t a) (col t j)) * wAt m c (feat t b) (col t j)

theorem acc_first_apply (c : Dev nD) (t : Fin cfg0.N) (h0 : t.val % 8 = 0) (a : Fin 1024) (b : Fin 512) :
    accAfter m c t (ix2 a b) = 0 + stepSum m c t a b := by
  have e1 : accAfter m c t (ix2 a b) = k0_pay3 (F := Ideal) (ix2 a b)
      + ∑ j : Fin 512, xblk m c t (ix2 a j) * Cert.Dequant.tileWeight (qblk m c t) (nblk m c t) b j :=
    (congrFun (acc_first m c t h0) (ix2 a b)).trans
      ((congrFun (TileStep.carry_eq (F := Ideal) (k0_pay4 (qblk m c t) (nblk m c t) (xblk m c t) (k0_pay3 (F := Ideal)))) (ix2 a b)).trans
        (TileStep.accumulate_apply (qblk m c t) (nblk m c t) (xblk m c t) (k0_pay3 (F := Ideal)) a b))
  refine e1.trans ?_
  refine congrArg₂ (· + ·) (TileStep.reset_apply a b) (Finset.sum_congr rfl fun j _ => ?_)
  exact congrArg₂ (· * ·) (xblk_apply m c t a j) (tile_weight m c t b j)

theorem acc_later_apply (c : Dev nD) (t : Fin cfg0.N) (h0 : ¬t.val % 8 = 0) (a : Fin 1024) (b : Fin 512) :
    accAfter m c t (ix2 a b) = accAfter m c (pred t) (ix2 a b) + stepSum m c t a b := by
  have e1 : accAfter m c t (ix2 a b) = accAfter m c (pred t) (ix2 a b)
      + ∑ j : Fin 512, xblk m c t (ix2 a j) * Cert.Dequant.tileWeight (qblk m c t) (nblk m c t) b j :=
    (congrFun (acc_later m c t h0) (ix2 a b)).trans
      ((congrFun (TileStep.carry_eq (F := Ideal) (k0_pay4 (qblk m c t) (nblk m c t) (xblk m c t) (accAfter m c (pred t)))) (ix2 a b)).trans
        (TileStep.accumulate_apply (qblk m c t) (nblk m c t) (xblk m c t) (accAfter m c (pred t)) a b))
  refine e1.trans ?_
  refine congrArg (accAfter m c (pred t) (ix2 a b) + ·) (Finset.sum_congr rfl fun j _ => ?_)
  exact congrArg₂ (· * ·) (xblk_apply m c t a j) (tile_weight m c t b j)

/-! ## The eight steps of one reduction -/

/-- Step `k` (taken modulo eight) of the reduction that point `t` belongs to. -/
def pt (t : Fin cfg0.N) (k : ℕ) : Fin cfg0.N :=
  ⟨8 * (t.val / 8) + k % 8, lt_of_lt_of_eq (by have := point_lt t; omega : 8 * (t.val / 8) + k % 8 < 2048) N_0.symm⟩

theorem row_pt (t : Fin cfg0.N) (k : ℕ) (a : Fin 1024) : row (pt t k) a = row t a :=
  Fin.ext (by show 1024 * ((8 * (t.val / 8) + k % 8) / 256) + a.val = 1024 * (t.val / 256) + a.val; omega)
theorem feat_pt (t : Fin cfg0.N) (k : ℕ) (b : Fin 512) : feat (pt t k) b = feat t b :=
  Fin.ext (by show 512 * ((8 * (t.val / 8) + k % 8) / 8 % 32) + b.val = 512 * (t.val / 8 % 32) + b.val; omega)
theorem col_pt (t : Fin cfg0.N) (k : ℕ) (hk : k < 8) (p : Fin 512) :
    col (pt t k) p = (⟨512 * k + p.val, Cert.Hand.LibTile.tile_lt (m := 8) (n := 512) rfl hk p.isLt⟩ : Fin 4096) :=
  Fin.ext (by show 512 * ((8 * (t.val / 8) + k % 8) % 8) + p.val = 512 * k + p.val; omega)

/-- The whole sum over the 4096 inputs at row `R`, feature `O`. -/
def fullSum (c : Dev nD) (R : Fin 8192) (O : Fin 16384) : EReal :=
  ∑ r : Fin 4096, xarr m c (ix2 R r) * wAt m c O r

/-- The accumulator's entry (a, b) after step `k` of `t`'s reduction. -/
def accStep (c : Dev nD) (t : Fin cfg0.N) (a : Fin 1024) (b : Fin 512) (k : ℕ) : EReal :=
  accAfter m c (pt t k) (ix2 a b)

/-- Term `p` of step `k`'s product at entry (a, b), written over `t`'s own row and feature. -/
def term (c : Dev nD) (t : Fin cfg0.N) (a : Fin 1024) (b : Fin 512) (k : ℕ) (p : Fin 512) : EReal :=
  xarr m c (ix2 (row t a) (col (pt t k) p)) * wAt m c (feat t b) (col (pt t k) p)

theorem stepSum_pt (c : Dev nD) (t : Fin cfg0.N) (a : Fin 1024) (b : Fin 512) (k : ℕ) :
    stepSum m c (pt t k) a b = ∑ p : Fin 512, term m c t a b k p := by
  unfold stepSum term
  rw [row_pt, feat_pt]

theorem accStep_zero (c : Dev nD) (t : Fin cfg0.N) (a : Fin 1024) (b : Fin 512) :
    accStep m c t a b 0 = 0 + ∑ p : Fin 512, term m c t a b 0 p :=
  (acc_first_apply m c (pt t 0) (by show (8 * (t.val / 8) + 0 % 8) % 8 = 0; omega) a b).trans
    (congrArg (0 + ·) (stepSum_pt m c t a b 0))

theorem accStep_succ (c : Dev nD) (t : Fin cfg0.N) (a : Fin 1024) (b : Fin 512) (k : ℕ) (hk : k + 1 < 8) :
    accStep m c t a b (k + 1) = accStep m c t a b k + ∑ p : Fin 512, term m c t a b (k + 1) p := by
  have hp : pred (pt t (k + 1)) = pt t k :=
    Fin.ext (by show 8 * (t.val / 8) + (k + 1) % 8 - 1 = 8 * (t.val / 8) + k % 8; omega)
  refine (acc_later_apply m c (pt t (k + 1)) (by show ¬(8 * (t.val / 8) + (k + 1) % 8) % 8 = 0; omega) a b).trans ?_
  exact congrArg₂ (· + ·) (congrArg (fun s => accAfter m c s (ix2 a b)) hp) (stepSum_pt m c t a b (k + 1))

/-- After the last step of a reduction the accumulator holds the whole sum. -/
theorem acc_last_apply (c : Dev nD) (t : Fin cfg0.N) (h7 : t.val % 8 = 7) (a : Fin 1024) (b : Fin 512) :
    accAfter m c t (ix2 a b) = fullSum m c (row t a) (feat t b) := by
  have hlast : pt t (8 - 1) = t := Fin.ext (by show 8 * (t.val / 8) + (8 - 1) % 8 = t.val; omega)
  have key := Cert.Hand.LibTile.acc_last_eq_sum (M := EReal) (m := 8) (n := 512) (N := 4096) rfl (by decide)
    (fun r => xarr m c (ix2 (row t a) r) * wAt m c (feat t b) r)
    (accStep m c t a b) (term m c t a b)
    (fun k hk p => by unfold term; rw [col_pt t k hk p])
    (accStep_zero m c t a b) (accStep_succ m c t a b)
  unfold accStep at key
  rw [hlast] at key
  exact key

/-- So the output block the last step writes holds, at (a, b), the whole sum plus the bias of its feature. -/
theorem out_last_apply (c : Dev nD) (t : Fin cfg0.N) (h7 : t.val % 8 = 7) (a : Fin 1024) (b : Fin 512) :
    outAfter m c t (ix2 a b) = fullSum m c (row t a) (feat t b) + barr m c (ix1 (feat t b)) := by
  refine (congrFun (out_last m c t h7) (ix2 a b)).trans ?_
  refine (TileStep.finish_apply (accAfter m c t) (bblk m c t) a b).trans ?_
  exact congrArg₂ (· + ·) (acc_last_apply m c t h7 a b) (bblk_apply m c t b)

end Cert.KernelIdeal.Running

end
-- ==== Proof.Result.lean ====
/-
  The result array. The output block written at the last step of each reduction holds, at (a, b), the whole sum for the
  point's row and feature plus the feature's bias; those blocks tile the 8192 x 16384 result, so the result is that
  function of row and feature everywhere. Re-laid as batch x position x feature and with the arrays the region read
  traced back to the arguments, it is the layer.
-/
import proofs.«425768_j10900626998011_1_alg».proof.Proof.Running
import Idealize.ShloMosaic.Lib.Pipeline.Value
import Idealize.ShloMosaic.Lib.StableHlo.Run

set_option maxRecDepth 16384

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.KernelIdeal.Blocks Cert.KernelIdeal.Running

variable (m : (ℓ : Loc nD τ sig) → Buf (Elt Ideal) ℓ) (ρ : Dev nD → PrngReg)

/-- The product with the bias added, at row `R` and feature `O`. -/
def product (c : Dev nD) : Buf (Elt Ideal) ((c : Thread nD τ).loc main_v3) :=
  fun i => fullSum m c (i 0) (i 1) + barr m c (ix1 (i 1))

theorem product_apply (c : Dev nD) (R : Fin 8192) (O : Fin 16384) :
    product m c (ix2 R O) = fullSum m c R O + barr m c (ix1 O) := rfl

/-- What a last step writes back is its block of the product. -/
theorem flushed_eq (c : Dev nD) (t : Fin cfg0.N) (hf : (cfg0.win 4).flush t = true) :
    (dats m 0 c).flushed 4 t = ((cfg0.win 4).blk t).view.read (Elt Ideal) (product m c) := by
  have h7 : t.val % 8 = 7 := (flush0_4 t).mp hf
  obtain ⟨-, -, -, -, -, -, -, -, -, e0, e1⟩ := index_facts t
  show (cfg0.win 4).cut (grid0.coords t) ((dats m 0 c).after 4 t) = _
  rw [after0_4]
  funext y
  obtain ⟨a, b, rfl⟩ : ∃ (a : Fin 1024) (b : Fin 512), y = ix2 a b := ⟨y 0, y 1, eq_ix2 y⟩
  rw [View.read_apply]
  have he : ((cfg0.win 4).blk t).view.emb (ix2 a b) = ix2 (row t a) (feat t b) := by
    funext d; apply Fin.ext
    match d with
    | ⟨0, _⟩ => show win0_4.index t (0 : Fin 2) * 1024 + 1 * a.val = 1024 * (t.val / 256) + a.val; omega
    | ⟨1, _⟩ => show win0_4.index t (1 : Fin 2) * 512 + 1 * b.val = 512 * (t.val / 8 % 32) + b.val; omega
  rw [he]
  exact out_last_apply m c t h7 a b

/-- An index is in a point's output block iff each coordinate is in the block's range. -/
theorem mem_blk (t : Fin cfg0.N) (i : S8192x16384.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v3).slice (win0_4.rect t)).set ↔ _
  rw [View.set_slice_whole, Rect.mem_set_unit]
  exact Iff.rfl

/-- Every entry of the result lies in the block some last step writes back. -/
theorem cover (i : S8192x16384.Idx) :
    ∃ t : Fin cfg0.N, (cfg0.win 4).flush t = true ∧ i ∈ ((cfg0.win 4).blk t).view.set := by
  have h0 : (i 0).val < 8192 := (i 0).isLt
  have h1 : (i 1).val < 16384 := (i 1).isLt
  obtain ⟨tv, htv⟩ : ∃ tv, tv = ((i 0).val / 1024 * 32 + (i 1).val / 512) * 8 + 7 := ⟨_, rfl⟩
  have hlt : tv < 2048 := by omega
  refine ⟨⟨tv, lt_of_lt_of_eq hlt N_0.symm⟩, (flush0_4 _).mpr (by show tv % 8 = 7; omega), ?_⟩
  rw [mem_blk]
  obtain ⟨-, -, -, -, -, -, -, -, -, e0, e1⟩ := index_facts ⟨tv, lt_of_lt_of_eq hlt N_0.symm⟩
  intro a
  match a with
  | ⟨0, _⟩ =>
    show win0_4.index ⟨tv, _⟩ (0 : Fin 2) * 1024 ≤ (i 0).val ∧ (i 0).val < win0_4.index ⟨tv, _⟩ (0 : Fin 2) * 1024 + 1024
    rw [e0]; show tv / 256 * 1024 ≤ (i 0).val ∧ (i 0).val < tv / 256 * 1024 + 1024; omega
  | ⟨1, _⟩ =>
    show win0_4.index ⟨tv, _⟩ (1 : Fin 2) * 512 ≤ (i 1).val ∧ (i 1).val < win0_4.index ⟨tv, _⟩ (1 : Fin 2) * 512 + 512
    rw [e1]; show tv / 8 % 32 * 512 ≤ (i 1).val ∧ (i 1).val < tv / 8 % 32 * 512 + 512; omega

/-- So the result array ends holding the product. -/
theorem final (c : Dev nD) : (dats m 0 c).arrAt 4 cfg0.N = product m c :=
  (dats m 0 c).arrAt_eq_of_cover 4 (product m c) (flushed_eq m c) cover

/-- The line after the region re-lays the product as batch x position x feature. -/
theorem tail (c : Dev nD) :
    Pipeline.afterTail₀ cfgs (dats m) 0 (V0 m) [hostOps1] c main_v4
      = shapeCast S4x2048x16384 (product m c) shapeCasts_S8192x16384_S4x2048x16384 := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.devRef .tc main_v3) = product m c :=
    (Pipeline.withArrays_arr spec0 launch0.win.arr_inj c _ _ 4).trans (final m c)
  rw [hw]
  rfl

/-- The weight matrix the region decodes, traced back to the arguments, is the specification's. -/
theorem wAt_eq (c : Dev nD) (o : Fin 16384) (r : Fin 4096) :
    wAt m c o r = Cert.Dequant.entry (m ((c : Thread nD τ).loc main_arg1)) (m ((c : Thread nD τ).loc main_arg2)) o r := by
  unfold wAt Cert.Dequant.entry
  rw [qarr_apply, narr_apply]
  rfl

/-- The re-laid product is the layer of the arguments. -/
theorem relaid_is_layer (c : Dev nD) :
    shapeCast S4x2048x16384 (product m c) shapeCasts_S8192x16384_S4x2048x16384
      = Cert.Dequant.layer (m ((c : Thread nD τ).loc main_arg0)) (m ((c : Thread nD τ).loc main_arg1))
          (m ((c : Thread nD τ).loc main_arg2)) (m ((c : Thread nD τ).loc main_arg3)) := by
  funext i
  obtain ⟨bb, s, o, rfl⟩ : ∃ (bb : Fin 4) (s : Fin 2048) (o : Fin 16384), i = ix3 bb s o := ⟨i 0, i 1, i 2, eq_ix3 i⟩
  have hb : bb.val < 4 := bb.isLt
  have hs : s.val < 2048 := s.isLt
  have hR : 2048 * bb.val + s.val < 8192 := by omega
  rw [shapeCast_apply (product m c) shapeCasts_S8192x16384_S4x2048x16384 (ix3 bb s o) (ix2 (⟨2048 * bb.val + s.val, hR⟩ : Fin 8192) o) (by
    show (S8192x16384.rowMajor _).val = (S4x2048x16384.rowMajor _).val
    rw [Shape.rowMajor_val_two, Shape.rowMajor_val_three]
    show (2048 * bb.val + s.val) * 16384 + o.val = (bb.val * 2048 + s.val) * 16384 + o.val
    omega)]
  rw [product_apply, Cert.Dequant.layer_apply]
  unfold fullSum Cert.Dequant.layerAt
  refine congrArg₂ (· + ·) (Finset.sum_congr rfl fun r _ => ?_) (congrFun (barr_eq m c) (ix1 o))
  refine congrArg₂ (· * ·) ?_ (wAt_eq m c o r)
  refine (xarr_apply m c ⟨2048 * bb.val + s.val, hR⟩ r).trans (congrArg (m ((c : Thread nD τ).loc main_arg0)) ?_)
  funext d; apply Fin.ext
  match d with
  | ⟨0, _⟩ => show (2048 * bb.val + s.val) / 2048 = bb.val; omega
  | ⟨1, _⟩ => show (2048 * bb.val + s.val) % 2048 = s.val; omega
  | ⟨2, _⟩ => rfl

/-- The kernel's run, read: the result at the layer of the arguments, the arguments unchanged. -/
theorem run : θ_run defs (onTc (τ := τ) (main (F := Ideal))) ⟨m, fun _ => 0, ρ⟩ fun r => ∀ c : Dev nD,
      r.2.mem ((c : Thread nD τ).loc main_v4)
        = Cert.Dequant.layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v4 (Pipeline.mem_restRefs_of main_v4 (by decide) (by decide))).trans ((tail m c).trans (relaid_is_layer m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.Result

end
-- ==== Proof.lean ====
/-
  A linear layer with 4-bit packed weights, tiled over a grid, against its plain reference.

  The kernel re-lays the batch as 8192 rows, cuts rows, output features and the 4096 inputs into blocks of 1024, 512 and
  512, and for each block of rows and features runs eight steps: each decodes a 512 x 512 tile of weights from its packed
  codes and scales (code * (1/15) * (2 scale) - scale) and adds the block product to an accumulator that starts at zero;
  the eighth adds the bias and writes the block out. The reference decodes the whole 16384 x 4096 matrix
  (code / 15 * (2 scale) - scale), contracts it with the inputs and adds the bias.

  Over the extended reals both are the same array (Dequant.lean's `layer`): dividing by fifteen is multiplying by the
  named constant 1/15; the eight partial sums of 512 terms regroup into the one sum of 4096 (addition is associative and
  commutative there, so no finiteness is used); and the two decodings read the same word and the same four bits.
  Pieces.lean, Blocks.lean, Running.lean and Result.lean read the kernel's run; TileStep.lean its arithmetic at an entry;
  RefLayer.lean the reference.
-/
import proofs.«425768_j10900626998011_1_alg».proof.Defs
import proofs.«425768_j10900626998011_1_alg».proof.Proof.Gen.Kernel
import proofs.«425768_j10900626998011_1_alg».proof.Proof.Gen.Kernel.Skeleton
import proofs.«425768_j10900626998011_1_alg».proof.Proof.Gen.Kernel.Launch
import proofs.«425768_j10900626998011_1_alg».proof.Proof.Gen.Kernel.Points
import proofs.«425768_j10900626998011_1_alg».proof.Proof.Gen.Kernel.Frame
import proofs.«425768_j10900626998011_1_alg».proof.Proof.Gen.KernelIdeal
import proofs.«425768_j10900626998011_1_alg».proof.Proof.Gen.KernelIdeal.Skeleton
import proofs.«425768_j10900626998011_1_alg».proof.Proof.Gen.KernelIdeal.Launch
import proofs.«425768_j10900626998011_1_alg».proof.Proof.Gen.KernelIdeal.Points
import proofs.«425768_j10900626998011_1_alg».proof.Proof.Gen.KernelIdeal.Frame
import proofs.«425768_j10900626998011_1_alg».proof.Proof.Gen.ReferenceIdeal
import proofs.«425768_j10900626998011_1_alg».proof.Proof.Gen.ReferenceIdeal.Run
import proofs.«425768_j10900626998011_1_alg».proof.Proof.Gen.ReferenceIdeal.Read
import proofs.«425768_j10900626998011_1_alg».proof.Proof.Gen.Pre_finite_inputs
import proofs.«425768_j10900626998011_1_alg».proof.Proof.RefLayer
import proofs.«425768_j10900626998011_1_alg».proof.Proof.Result
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the constant 0.06666667 is named 1/15. -/
theorem preserves : Cert.preserves_Kernel_KernelIdeal :=
  IdealRules.named_const.statement Cert.KernelIdeal.κ "inv_15" .f32 0x3D888889#32 ((1 / 15 : ℝ) : EReal) rfl

/-- Both programs end with the layer of the arguments. -/
theorem algebraic : Cert.algebraic_KernelIdeal_ReferenceIdeal := by
  intro m ρ m' ρ' _ hagree
  refine ⟨fun c => Cert.Dequant.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.RefLayer.reference_is_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
